-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x400000 : Shape := ⟨2, ![2, 400000]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x128 .f32) (main_arg1 : IVec S2x1600000 32) (main_arg2 : IVec S2x400000 32) (main_arg3 : FVec F S128x32 .f32) (main_arg4 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S2x400000 : Shape := ⟨2, ![2, 400000]⟩
abbrev S128x32 : Shape := ⟨2, ![128, 32]⟩
abbrev S32 : Shape := ⟨1, ![32]⟩
abbrev S2x2000000 : Shape := ⟨2, ![2, 2000000]⟩
abbrev S100000 : Shape := ⟨1, ![100000]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S100000x32 : Shape := ⟨2, ![100000, 32]⟩
abbrev S5000x128 : Shape := ⟨2, ![5000, 128]⟩
abbrev S5000x32 : Shape := ⟨2, ![5000, 32]⟩
abbrev S2100000x32 : Shape := ⟨2, ![2100000, 32]⟩
abbrev S1x32 : Shape := ⟨2, ![1, 32]⟩

abbrev nBuf : Space → Nat
  | .hbm => 66
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x400000, .i32⟩
  | .hbm, ⟨3, _⟩ => ⟨S128x32, .f32⟩
  | .hbm, ⟨4, _⟩ => ⟨S32, .f32⟩
  | .hbm, ⟨5, _⟩ => ⟨S2x2000000, .i32⟩
  | .hbm, ⟨6, _⟩ => ⟨S100000, .i32⟩
  | .hbm, ⟨7, _⟩ => ⟨S1x2000000, .i32⟩
  | .hbm, ⟨8, _⟩ => ⟨S2000000, .i32⟩
  | .hbm, ⟨9, _⟩ => ⟨S2100000, .i32⟩
  | .hbm, ⟨10, _⟩ => ⟨S1x2000000, .i32⟩
  | .hbm, ⟨11, _⟩ => ⟨S2000000, .i32⟩
  | .hbm, ⟨12, _⟩ => ⟨S2100000, .i32⟩
  | .hbm, ⟨13, _⟩ => ⟨S_, .f32⟩
  | .hbm, ⟨14, _⟩ => ⟨S2100000, .f32⟩
  | .hbm, ⟨15, _⟩ => ⟨S_, .f32⟩
  | .hbm, ⟨16, _⟩ => ⟨S100000, .f32⟩
  | .hbm, ⟨17, _⟩ => ⟨S2100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S2100000, .i32⟩
  | .hbm, ⟨29, _⟩ => ⟨S2100000, .i1⟩
  | .hbm, ⟨30, _⟩ => ⟨S_, .i32⟩
  | .hbm, ⟨31, _⟩ => ⟨S2100000, .i32⟩
  | .hbm, ⟨32, _⟩ => ⟨S2100000, .i32⟩
  | .hbm, ⟨33, _⟩ => ⟨S2100000, .i32⟩
  | .hbm, ⟨34, _⟩ => ⟨S2100000x1, .i32⟩
  | .hbm, ⟨35, _⟩ => ⟨S2100000, .f32⟩
  | .hbm, ⟨36, _⟩ => ⟨S_, .i32⟩
  | .hbm, ⟨37, _⟩ => ⟨S2100000, .i32⟩
  | .hbm, ⟨38, _⟩ => ⟨S2100000, .i1⟩
  | .hbm, ⟨39, _⟩ => ⟨S_, .i32⟩
  | .hbm, ⟨40, _⟩ => ⟨S2100000, .i32⟩
  | .hbm, ⟨41, _⟩ => ⟨S2100000, .i32⟩
  | .hbm, ⟨42, _⟩ => ⟨S2100000, .i32⟩
  | .hbm, ⟨43, _⟩ => ⟨S2100000x1, .i32⟩
  | .hbm, ⟨44, _⟩ => ⟨S2100000, .f32⟩
  | .hbm, ⟨45, _⟩ => ⟨S2100000, .f32⟩
  | .hbm, ⟨46, _⟩ => ⟨S100000x32, .f32⟩
  | .hbm, ⟨47, _⟩ => ⟨S_, .i32⟩
  | .hbm, ⟨48, _⟩ => ⟨S2100000, .i32⟩
  | .hbm, ⟨49, _⟩ => ⟨S2100000, .i1⟩
  | .hbm, ⟨50, _⟩ => ⟨S_, .i32⟩
  | .hbm, ⟨51, _⟩ => ⟨S2100000, .i32⟩
  | .hbm, ⟨52, _⟩ => ⟨S2100000, .i32⟩
  | .hbm, ⟨53, _⟩ => ⟨S2100000, .i32⟩
  | .hbm, ⟨54, _⟩ => ⟨S2100000x1, .i32⟩
  | .hbm, ⟨55, _⟩ => ⟨S2100000x32, .f32⟩
  | .hbm, ⟨56, _⟩ => ⟨S2100000x1, .f32⟩
  | .hbm, ⟨57, _⟩ => ⟨S2100000x32, .f32⟩
  | .hbm, ⟨58, _⟩ => ⟨S2100000x32, .f32⟩
  | .hbm, ⟨59, _⟩ => ⟨S_, .f32⟩
  | .hbm, ⟨60, _⟩ => ⟨S100000x32, .f32⟩
  | .hbm, ⟨61, _⟩ => ⟨S2100000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S2x1600000_S2x400000_S2x2000000_d1 : Shape.Concatenates [S2x1600000, S2x400000] S2x2000000 1
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S2100000x1_S2100000x32_0_1 : S2100000x1.BroadcastsInDim S2100000x32 (![0, 1] : Fin 2 → Fin S2100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S5000x128_S128x32_S5000x32_1_0_0_1_n_n_wf : DotDims.WF S5000x128 S128x32 S5000x32 [1] [0] [0] [1] [] []
  gather_S100000x32_S2100000x1_S2100000x32_1_0_n_n_0_1_132_wf : GatherDims.WF S100000x32 S2100000x1 S2100000x32 [1] [0] [] [0] [] 1 ![1, 32]
  scatter_S100000x32_S2100000x1_S2100000x32_1_0_0_1_wf : ScatterDims.WF S100000x32 S2100000x1 S2100000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S2100000x1_S2100000x32_1_0_n_n_0_1_132 : GatherDims S100000x32 S2100000x1 S2100000x32 where
  offsetDims := [1]
  collapsedSliceDims := [0]
  operandBatchingDims := []
  startIndicesBatchingDims := []
  startIndexMap := [0]
  indexVectorDim := 1
  sliceSizes := ![1, 32]
  wf := gather_S100000x32_S2100000x1_S2100000x32_1_0_n_n_0_1_132_wf
def scatter_S100000x32_S2100000x1_S2100000x32_1_0_0_1 : ScatterDims S100000x32 S2100000x1 S2100000x32 where
  updateWindowDims := [1]
  insertedWindowDims := [0]
  scatterDimsToOperandDims := [0]
  indexVectorDim := 1
  wf := scatter_S100000x32_S2100000x1_S2100000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x400000 : Shape := ⟨2, ![2, 400000]⟩
abbrev S128x32 : Shape := ⟨2, ![128, 32]⟩
abbrev S32 : Shape := ⟨1, ![32]⟩
abbrev S2x2000000 : Shape := ⟨2, ![2, 2000000]⟩
abbrev S100000 : Shape := ⟨1, ![100000]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S100000x32 : Shape := ⟨2, ![100000, 32]⟩
abbrev S2100000x32 : Shape := ⟨2, ![2100000, 32]⟩
abbrev S1x32 : Shape := ⟨2, ![1, 32]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x400000, .i32⟩
  | .hbm, ⟨3, _⟩ => ⟨S128x32, .f32⟩
  | .hbm, ⟨4, _⟩ => ⟨S32, .f32⟩
  | .hbm, ⟨5, _⟩ => ⟨S2x2000000, .i32⟩
  | .hbm, ⟨6, _⟩ => ⟨S100000, .i32⟩
  | .hbm, ⟨7, _⟩ => ⟨S1x2000000, .i32⟩
  | .hbm, ⟨8, _⟩ => ⟨S2000000, .i32⟩
  | .hbm, ⟨9, _⟩ => ⟨S2100000, .i32⟩
  | .hbm, ⟨10, _⟩ => ⟨S1x2000000, .i32⟩
  | .hbm, ⟨11, _⟩ => ⟨S2000000, .i32⟩
  | .hbm, ⟨12, _⟩ => ⟨S2100000, .i32⟩
  | .hbm, ⟨13, _⟩ => ⟨S_, .f32⟩
  | .hbm, ⟨14, _⟩ => ⟨S2100000, .f32⟩
  | .hbm, ⟨15, _⟩ => ⟨S_, .f32⟩
  | .hbm, ⟨16, _⟩ => ⟨S100000, .f32⟩
  | .hbm, ⟨17, _⟩ => ⟨S2100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S2100000, .i32⟩
  | .hbm, ⟨29, _⟩ => ⟨S2100000, .i1⟩
  | .hbm, ⟨30, _⟩ => ⟨S_, .i32⟩
  | .hbm, ⟨31, _⟩ => ⟨S2100000, .i32⟩
  | .hbm, ⟨32, _⟩ => ⟨S2100000, .i32⟩
  | .hbm, ⟨33, _⟩ => ⟨S2100000, .i32⟩
  | .hbm, ⟨34, _⟩ => ⟨S2100000x1, .i32⟩
  | .hbm, ⟨35, _⟩ => ⟨S2100000, .f32⟩
  | .hbm, ⟨36, _⟩ => ⟨S_, .i32⟩
  | .hbm, ⟨37, _⟩ => ⟨S2100000, .i32⟩
  | .hbm, ⟨38, _⟩ => ⟨S2100000, .i1⟩
  | .hbm, ⟨39, _⟩ => ⟨S_, .i32⟩
  | .hbm, ⟨40, _⟩ => ⟨S2100000, .i32⟩
  | .hbm, ⟨41, _⟩ => ⟨S2100000, .i32⟩
  | .hbm, ⟨42, _⟩ => ⟨S2100000, .i32⟩
  | .hbm, ⟨43, _⟩ => ⟨S2100000x1, .i32⟩
  | .hbm, ⟨44, _⟩ => ⟨S2100000, .f32⟩
  | .hbm, ⟨45, _⟩ => ⟨S2100000, .f32⟩
  | .hbm, ⟨46, _⟩ => ⟨S100000x32, .f32⟩
  | .hbm, ⟨47, _⟩ => ⟨S_, .i32⟩
  | .hbm, ⟨48, _⟩ => ⟨S2100000, .i32⟩
  | .hbm, ⟨49, _⟩ => ⟨S2100000, .i1⟩
  | .hbm, ⟨50, _⟩ => ⟨S_, .i32⟩
  | .hbm, ⟨51, _⟩ => ⟨S2100000, .i32⟩
  | .hbm, ⟨52, _⟩ => ⟨S2100000, .i32⟩
  | .hbm, ⟨53, _⟩ => ⟨S2100000, .i32⟩
  | .hbm, ⟨54, _⟩ => ⟨S2100000x1, .i32⟩
  | .hbm, ⟨55, _⟩ => ⟨S2100000x32, .f32⟩
  | .hbm, ⟨56, _⟩ => ⟨S2100000x1, .f32⟩
  | .hbm, ⟨57, _⟩ => ⟨S2100000x32, .f32⟩
  | .hbm, ⟨58, _⟩ => ⟨S2100000x32, .f32⟩
  | .hbm, ⟨59, _⟩ => ⟨S_, .f32⟩
  | .hbm, ⟨60, _⟩ => ⟨S100000x32, .f32⟩
  | .hbm, ⟨61, _⟩ => ⟨S2100000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  concatenates_S2x1600000_S2x400000_S2x2000000_d1 : Shape.Concatenates [S2x1600000, S2x400000] S2x2000000 1
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  bcast_S2100000x1_S2100000x32_0_1 : S2100000x1.BroadcastsInDim S2100000x32 (![0, 1] : Fin 2 → Fin S2100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S100000x128_S128x32_S100000x32_1_0_0_1_n_n_wf : DotDims.WF S100000x128 S128x32 S100000x32 [1] [0] [0] [1] [] []
  gather_S100000x32_S2100000x1_S2100000x32_1_0_n_n_0_1_132_wf : GatherDims.WF S100000x32 S2100000x1 S2100000x32 [1] [0] [] [0] [] 1 ![1, 32]
  scatter_S100000x32_S2100000x1_S2100000x32_1_0_0_1_wf : ScatterDims.WF S100000x32 S2100000x1 S2100000x32 [1] [0] [0] 1

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S2100000x1_S2100000x32_1_0_n_n_0_1_132 : GatherDims S100000x32 S2100000x1 S2100000x32 where
  offsetDims := [1]
  collapsedSliceDims := [0]
  operandBatchingDims := []
  startIndicesBatchingDims := []
  startIndexMap := [0]
  indexVectorDim := 1
  sliceSizes := ![1, 32]
  wf := gather_S100000x32_S2100000x1_S2100000x32_1_0_n_n_0_1_132_wf
def scatter_S100000x32_S2100000x1_S2100000x32_1_0_0_1 : ScatterDims S100000x32 S2100000x1 S2100000x32 where
  updateWindowDims := [1]
  insertedWindowDims := [0]
  scatterDimsToOperandDims := [0]
  indexVectorDim := 1
  wf := scatter_S100000x32_S2100000x1_S2100000x32_1_0_0_1_wf

class Facts : Prop extends Facts₀ where

variable [Facts]
-- ==== Proof.Aggregate.lean ====
/-
  Everything the layer does after the projection, as ONE function of the projected features `h`.
  With `src` and `dst` the source and target node of every edge (the given edges followed by one self-loop
  per node) and `norm` the edge's weight deg(src)^(-1/2) · deg(dst)^(-1/2):  a negative source index is wrapped
  by adding the node count, row `h[src]` is fetched for every edge and scaled by the edge's weight, the scaled
  rows are summed into their target nodes starting from zero, and the bias is added to every node's row.
  Both programs apply exactly this chain; they differ only in how `h` is produced, so the chain is carried
  as one opaque function and never opened.
-/
import proofs.«423407_j37117107372138_3_alg».proof.Proof.RefRead

noncomputable section

namespace Cert.ReferenceIdeal.Aggregate

open Cert.ReferenceIdeal Cert.ReferenceIdeal.Gen Cert.ReferenceIdeal.ReadP Idealize.ShloMosaic Idealize.ShloMosaic.TcCoe Idealize.SL.Sem

variable {F : FTy → Type} [FloatOps F]

/-- Gather the projected rows along the edges, weight them, sum them per target node, add the bias. -/
def aggregate (h : (⟨S100000x32, .f32⟩ : BufTy).Contents (Elt F)) (src dst : (⟨S2100000, .i32⟩ : BufTy).Contents (Elt F))
    (norm : (⟨S2100000, .f32⟩ : BufTy).Contents (Elt F)) (bias : (⟨S32, .f32⟩ : BufTy).Contents (Elt F)) :
    (⟨S100000x32, .f32⟩ : BufTy).Contents (Elt F) :=
  addf
    (Host.scatterAdd scatter_S100000x32_S2100000x1_S2100000x32_1_0_0_1
      (broadcastInDim S100000x32 ![] bcast_S_S100000x32 (constant (F := F) S_ .f32 0x00000000#32))
      (broadcastInDim S2100000x1 ![0] bcast_S2100000_S2100000x1_0 dst)
      (mulf
        (Host.gather gather_S100000x32_S2100000x1_S2100000x32_1_0_n_n_0_1_132 h
          (broadcastInDim S2100000x1 ![0] bcast_S2100000_S2100000x1_0
            (select (cmpi .slt src (broadcastInDim S2100000 ![] bcast_S_S2100000 (constantI S_ 32 0#32)))
              (addi src (broadcastInDim S2100000 ![] bcast_S_S2100000 (constantI S_ 32 100000#32)))
              src)))
        (broadcastInDim S2100000x32 ![0, 1] bcast_S2100000x1_S2100000x32_0_1
          (broadcastInDim S2100000x1 ![0] bcast_S2100000_S2100000x1_0 norm))))
    (broadcastInDim S100000x32 ![0, 1] bcast_S1x32_S100000x32_0_1 (broadcastInDim S1x32 ![1] bcast_S32_S1x32_1 bias))

/-- The reference's result is the chain applied to its own projection `x · W`, its edge lists and its weights:
    the stages after the product are the chain's operations, one for one. -/
theorem reference_result (x0 : (⟨S100000x128, .f32⟩ : BufTy).Contents (Elt F)) (x1 : (⟨S2x1600000, .i32⟩ : BufTy).Contents (Elt F))
    (x2 : (⟨S2x400000, .i32⟩ : BufTy).Contents (Elt F)) (x3 : (⟨S128x32, .f32⟩ : BufTy).Contents (Elt F)) (x4 : (⟨S32, .f32⟩ : BufTy).Contents (Elt F)) :
    val_main_v47 (F := F) x0 x1 x2 x3 x4
      = aggregate (val_main_v31 (F := F) x0 x3) (val_main_v4 (F := F) x1 x2) (val_main_v7 (F := F) x1 x2) (val_main_v30 (F := F) x1 x2) x4 := by
  unfold val_main_v47 val_main_v44 val_main_v46 val_main_v45 val_main_v43 val_main_v42 val_main_cst_8 val_main_v41 val_main_v40 val_main_v39
    val_main_v38 val_main_v37 val_main_v36 val_main_v35 val_main_v34 val_main_c_7 val_main_v33 val_main_v32 val_main_c_6 aggregate
  rfl

end Cert.ReferenceIdeal.Aggregate

end
-- ==== Proof.BlockProduct.lean ====
/-
  One grid step of the projection. The body loads a 5000 × 128 block of node features and the whole 128 × 32
  weight matrix, narrows both to bf16, and multiplies them on the matrix unit into a zero accumulator.  Over the
  extended reals a change of float format is the identity and the zero accumulator adds nothing, so entry (p, q)
  of the block the step stores is the plain sum over k of x(p, k) · w(k, q): the contraction index of the
  product is the one shared axis of length 128, read along a row of the features and down a column of the weights.
-/
import proofs.«423407_j37117107372138_3_alg».proof.Proof.Gen.KernelIdeal.Skeleton
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-- In the product's index bookkeeping, the features' row coordinate is the output's row coordinate. -/
theorem lhs_row (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- The features' column coordinate is the contraction index. -/
theorem lhs_col (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
/-- The weights' row coordinate is the contraction index. -/
theorem rhs_row (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
/-- The weights' column coordinate is the output's column coordinate. -/
theorem rhs_col (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- Entry k of the features' row that output entry `y` reads. -/
abbrev rowAt (y : S5000x32.Idx) (k : Fin 128) : S5000x128.Idx := fun a => match a with
  | ⟨0, _⟩ => ⟨(y 0).val, (y 0).isLt⟩
  | ⟨1, _⟩ => ⟨k.val, k.isLt⟩
/-- Entry k of the weights' column that output entry `y` reads. -/
abbrev colAt (y : S5000x32.Idx) (k : Fin 128) : S128x32.Idx := fun a => match a with
  | ⟨0, _⟩ => ⟨k.val, k.isLt⟩
  | ⟨1, _⟩ => ⟨(y 1).val, (y 1).isLt⟩

/-- What one step stores, at an entry: the sum over the shared axis of feature times weight.  The two narrowings
    are the identity on extended reals, the accumulator is zero, and the product's contraction index type is
    re-indexed to `Fin 128`. -/
theorem block_entry (x0 : Vec Ideal S5000x128 .f32) (x1 : Vec Ideal S128x32 .f32) (y : S5000x32.Idx) :
    k0_pay1 (F := Ideal) x0 x1 y = ∑ k : Fin 128, x0 (rowAt y k) * x1 (colAt y k) := by
  unfold k0_pay1
  show FloatOps.matmul (F := Ideal) (φ₁ := .bf16) (φ₂ := .bf16) dot_S5000x128_S128x32_S5000x32_1_0_0_1_n_n none x0 x1 (constant S5000x32 .f32 0x00000000#32) y = _
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx y ((ValueIdx.contrEquiv1 dot_S5000x128_S128x32_S5000x32_1_0_0_1_n_n 128 rfl rfl).symm k) = rowAt y k := funext fun a => Fin.ext (by
    match a with
    | ⟨0, _⟩ => exact lhs_row _ _
    | ⟨1, _⟩ => exact (lhs_col _ _).trans hk)
  have er : dot_S5000x128_S128x32_S5000x32_1_0_0_1_n_n.rhsIdx y ((ValueIdx.contrEquiv1 dot_S5000x128_S128x32_S5000x32_1_0_0_1_n_n 128 rfl rfl).symm k) = colAt y k := funext fun a => Fin.ext (by
    match a with
    | ⟨0, _⟩ => exact (rhs_row _ _).trans hk
    | ⟨1, _⟩ => exact rhs_col _ _)
  rw [el, er]

end Cert.KernelIdeal.BlockProduct

end
-- ==== Proof.Projection.lean ====
/-
  The pipeline's output array after its twenty steps is the whole product x · W.
  Step t multiplies rows 5000·t … 5000·t + 4999 of the features by the whole weight matrix and writes the result to
  the same rows of the output.  So what step t writes back is rows 5000·t … of ONE array, the product read entry by
  entry as the sum over k of x(r, k) · W(k, q); the twenty row blocks tile the 100000 rows (row r belongs to
  step r / 5000), hence the array ends holding that product everywhere.  The product is named by the reference's
  own stage for its matrix product, so both sides speak of the same function.
-/
import proofs.«423407_j37117107372138_3_alg».proof.Proof.Gen.KernelIdeal.Frame
import proofs.«423407_j37117107372138_3_alg».proof.Proof.BlockProduct
import proofs.«423407_j37117107372138_3_alg».proof.Proof.RefRead
import Idealize.ShloMosaic.Lib.Pipeline.Value

set_option maxRecDepth 16384

noncomputable section

namespace Cert.KernelIdeal.Projection

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Every access of the body starts at the origin of its staging buffer. -/
theorem origin : (![0, 0] : Fin 2 → Nat) = fun _ => 0 := funext fun a => by fin_cases a <;> rfl

/-- The whole product of a feature array and a weight matrix, as the reference computes it. -/
abbrev product (x : (⟨Cert.ReferenceIdeal.S100000x128, .f32⟩ : BufTy).Contents (Elt Ideal)) (w : (⟨Cert.ReferenceIdeal.S128x32, .f32⟩ : BufTy).Contents (Elt Ideal)) :
    (⟨Cert.ReferenceIdeal.S100000x32, .f32⟩ : BufTy).Contents (Elt Ideal) :=
  Cert.ReferenceIdeal.ReadP.val_main_v31 (F := Ideal) x w

/-- The printed index maps, decided over the twenty steps: the features' and the output's row block is the step,
    every column block and the weights' blocks are 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the features' block at step `t` is entry (5000·t + y₀, y₁) of the feature array. -/
theorem feature_block (c : Dev nD) (t : Fin cfg0.N) (y : S5000x128.Idx) (i : S100000x128.Idx)
    (h0 : (i 0).val = t.val * 5000 + (y 0).val) (h1 : (i 1).val = (y 1).val) :
    iblk m c 0 t y = V m c main_arg0 i := by
  obtain ⟨e0, e1, -⟩ := index_facts t
  show V m c main_arg0 (((cfg0.win 0).blk t).view.emb y) = V m c main_arg0 i
  have e : ((cfg0.win 0).blk t).view.emb y = i := by
    funext a; apply Fin.ext
    match a with
    | ⟨0, _⟩ => show win0_0.index t (0 : Fin 2) * 5000 + 1 * (y 0).val = (i 0).val; omega
    | ⟨1, _⟩ => show win0_0.index t (1 : Fin 2) * 128 + 1 * (y 1).val = (i 1).val; omega
  rw [e]

/-- The weights' block is the whole weight matrix at every step. -/
theorem weight_block (c : Dev nD) (t : Fin cfg0.N) (y : S128x32.Idx) (i : S128x32.Idx)
    (h0 : (i 0).val = (y 0).val) (h1 : (i 1).val = (y 1).val) :
    iblk m c 1 t y = V m c main_arg3 i := by
  obtain ⟨-, -, e2, e3, -⟩ := index_facts t
  show V m c main_arg3 (((cfg0.win 1).blk t).view.emb y) = V m c main_arg3 i
  have e : ((cfg0.win 1).blk t).view.emb y = i := by
    funext a; apply Fin.ext
    match a with
    | ⟨0, _⟩ => show win0_1.index t (0 : Fin 2) * 128 + 1 * (y 0).val = (i 0).val; omega
    | ⟨1, _⟩ => show win0_1.index t (1 : Fin 2) * 32 + 1 * (y 1).val = (i 1).val; omega
  rw [e]

/-- WHAT STEP `t` WRITES BACK is rows 5000·t … of the whole product of the arrays as the pipeline finds them. -/
theorem flushed_eq (c : Dev nD) (t : Fin cfg0.N) :
    (dats m 0 c).flushed 2 t = ((cfg0.win 2).blk t).view.read (Elt Ideal) (product (V m c main_arg0) (V m c main_arg3)) := by
  show (cfg0.win 2).cut (grid0.coords t) ((dats m 0 c).after 2 t) = _
  rw [after0_2]
  unfold out0_2
  rw [View.canon_unit_zero origin]
  simp only [View.ld_unit_zero (S := S5000x128) origin, View.ld_unit_zero (S := S128x32) origin]
  obtain ⟨-, -, -, -, e4, e5⟩ := index_facts t
  funext y
  refine (BlockProduct.block_entry (iblk m c 0 t) (iblk m c 1 t) y).trans ?_
  show _ = Cert.ReferenceIdeal.ReadP.val_main_v31 (F := Ideal) (V m c main_arg0) (V m c main_arg3) (((cfg0.win 2).blk t).view.emb y)
  rw [Cert.ReferenceIdeal.ReadP.val_main_v31_apply]
  refine Finset.sum_congr rfl fun k _ => ?_
  have hr : ((((cfg0.win 2).blk t).view.emb y) 0).val = t.val * 5000 + (y 0).val := by
    show win0_2.index t (0 : Fin 2) * 5000 + 1 * (y 0).val = _; omega
  have hq : ((((cfg0.win 2).blk t).view.emb y) 1).val = (y 1).val := by
    show win0_2.index t (1 : Fin 2) * 32 + 1 * (y 1).val = _; omega
  rw [feature_block m c t (BlockProduct.rowAt y k) (Cert.ReferenceIdeal.ReadP.lidx_main_v31 (((cfg0.win 2).blk t).view.emb y) k) hr rfl,
    weight_block m c t (BlockProduct.colAt y k) (Cert.ReferenceIdeal.ReadP.ridx_main_v31 (((cfg0.win 2).blk t).view.emb y) k) rfl hq]

/-- An index of the output array is in step `t`'s block iff each coordinate is in the block's range on its axis. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v31).slice (win0_2.rect t)).set ↔ _
  rw [View.set_slice_whole, Rect.mem_set_unit]
  exact Iff.rfl

/-- The twenty row blocks tile the output: row r is written by step r / 5000. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  have ht : (i 0).val / 5000 < cfg0.N := by rw [hN]; omega
  refine ⟨⟨(i 0).val / 5000, ht⟩, flush0_2 _, ?_⟩
  rw [mem_block]
  obtain ⟨-, -, -, -, e4, e5⟩ := index_facts ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 32 ≤ (i 1).val ∧ (i 1).val < win0_2.index ⟨(i 0).val / 5000, ht⟩ (1 : Fin 2) * 32 + 32
    rw [e5]; omega

/-- THE OUTPUT ARRAY after the run: the whole product of the launch contents of the features and the weights. -/
theorem projected (c : Dev nD) :
    (dats m 0 c).arrAt 2 cfg0.N = product (m ((c : Thread nD τ).loc main_arg0)) (m ((c : Thread nD τ).loc main_arg3)) := by
  rw [← V_main_arg0 m c, ← V_main_arg3 m c]
  exact (dats m 0 c).arrAt_eq_of_cover 2 _ (fun t _ => flushed_eq m c t) covered

end Cert.KernelIdeal.Projection

end
-- ==== Proof.Tail.lean ====
/-
  The kernel's program around its one pipeline.  Before the pipeline the host operations build, from the two edge
  lists alone, the source and target index of every edge and the edge weights; none of them reads the projected
  features.  After the pipeline the host operations are the aggregation chain applied to the pipeline's output
  array and to those three buffers.  The operations are the reference's own, line for line, so each buffer the
  pipeline finds is the reference's stage of the same name, and the result buffer is the chain of the output array.
-/
import proofs.«423407_j37117107372138_3_alg».proof.Proof.Gen.KernelIdeal.Frame
import proofs.«423407_j37117107372138_3_alg».proof.Proof.Aggregate

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- The edge sources the pipeline finds: the first rows of the two edge lists joined, then one index per node. -/
theorem sources (c : Dev nD) :
    (V m c main_v4 : (⟨S2100000, .i32⟩ : BufTy).Contents (Elt F))
      = Cert.ReferenceIdeal.ReadP.val_main_v4 (F := F) (m ((c : Thread nD τ).loc main_arg1)) (m ((c : Thread nD τ).loc main_arg2)) := by
  dsimp only [V, V0]
  simp only [hostOps0, hostOps0_1, hostOps0_2, List.flatten_cons, List.flatten_nil, List.append_nil, List.cons_append, List.nil_append]
  after_results_simp
  rfl

/-- The edge targets the pipeline finds: the second rows joined, then one index per node. -/
theorem targets (c : Dev nD) :
    (V m c main_v7 : (⟨S2100000, .i32⟩ : BufTy).Contents (Elt F))
      = Cert.ReferenceIdeal.ReadP.val_main_v7 (F := F) (m ((c : Thread nD τ).loc main_arg1)) (m ((c : Thread nD τ).loc main_arg2)) := by
  dsimp only [V, V0]
  simp only [hostOps0, hostOps0_1, hostOps0_2, List.flatten_cons, List.flatten_nil, List.append_nil, List.cons_append, List.nil_append]
  after_results_simp
  rfl

/-- The edge weights the pipeline finds: deg^(-1/2) at the source times deg^(-1/2) at the target, with deg the
    number of edges into a node (1 where there is none). -/
theorem weights (c : Dev nD) :
    (V m c main_v30 : (⟨S2100000, .f32⟩ : BufTy).Contents (Elt F))
      = Cert.ReferenceIdeal.ReadP.val_main_v30 (F := F) (m ((c : Thread nD τ).loc main_arg1)) (m ((c : Thread nD τ).loc main_arg2)) := by
  dsimp only [V, V0]
  simp only [hostOps0, hostOps0_1, hostOps0_2, List.flatten_cons, List.flatten_nil, List.append_nil, List.cons_append, List.nil_append]
  after_results_simp
  rfl

set_option maxHeartbeats 4000000 in
/-- The result buffer after the operations that follow the pipeline: the aggregation chain of the pipeline's output
    array, the sources, the targets, the weights and the bias, each as the pipeline found it. -/
theorem result_eq (c : Dev nD) :
    Pipeline.afterTail₀ cfgs (dats m) 0 (V0 m) [hostOps1] c main_v47
      = Cert.ReferenceIdeal.Aggregate.aggregate (F := F) ((dats m 0 c).arrAt 2 cfg0.N) (V m c main_v4) (V m c main_v7) (V m c main_v30) (V m c main_arg4) := by
  unfold Pipeline.afterTail₀
  show StableHlo.after hostOps1 _ (Proc.devRef .tc main_v47) = _
  after_results_simp
  have hh : Pipeline.withArrays (cfgs 0).spec c (V0 m c) (fun w => (dats m 0 c).arrAt w (cfgs 0).N) (Proc.devRef .tc main_v31)
      = (dats m 0 c).arrAt 2 cfg0.N := Pipeline.withArrays_arr (cfgs 0).spec launch0.win.arr_inj c (V0 m c) _ 2
  have hs : Pipeline.withArrays (cfgs 0).spec c (V0 m c) (fun w => (dats m 0 c).arrAt w (cfgs 0).N) (Proc.devRef .tc main_v4)
      = V m c main_v4 := Pipeline.withArrays_of_ne _ c (V0 m c) _ main_v4 (by exact (by decide : ∀ w, Pipeline.arrRef spec0 w ≠ main_v4))
  have hd : Pipeline.withArrays (cfgs 0).spec c (V0 m c) (fun w => (dats m 0 c).arrAt w (cfgs 0).N) (Proc.devRef .tc main_v7)
      = V m c main_v7 := Pipeline.withArrays_of_ne _ c (V0 m c) _ main_v7 (by exact (by decide : ∀ w, Pipeline.arrRef spec0 w ≠ main_v7))
  have hn : Pipeline.withArrays (cfgs 0).spec c (V0 m c) (fun w => (dats m 0 c).arrAt w (cfgs 0).N) (Proc.devRef .tc main_v30)
      = V m c main_v30 := Pipeline.withArrays_of_ne _ c (V0 m c) _ main_v30 (by exact (by decide : ∀ w, Pipeline.arrRef spec0 w ≠ main_v30))
  have hb : Pipeline.withArrays (cfgs 0).spec c (V0 m c) (fun w => (dats m 0 c).arrAt w (cfgs 0).N) (Proc.devRef .tc main_arg4)
      = V m c main_arg4 := Pipeline.withArrays_of_ne _ c (V0 m c) _ main_arg4 (by exact (by decide : ∀ w, Pipeline.arrRef spec0 w ≠ main_arg4))
  rw [hh, hs, hd, hn, hb]
  generalize (dats m 0 c).arrAt 2 cfg0.N = h
  generalize V m c main_v4 = s
  generalize V m c main_v7 = d
  generalize V m c main_v30 = n
  generalize V m c main_arg4 = b
  rfl

end Cert.KernelIdeal.Tail

end
-- ==== Proof.lean ====
/-
  A one-layer graph convolution: project the node features, `h = x · W`, then for every edge (the given edges and
  one self-loop per node) carry row `h[src]`, scaled by deg(src)^(-1/2) · deg(dst)^(-1/2), to node `dst`, sum the
  carried rows per node and add the bias.  The kernel computes the projection in a pipeline of twenty steps, each
  multiplying 5000 rows of the features by the whole weight matrix on the matrix unit with bf16 operands; the
  reference computes it as one matrix product.  Everything else — the edge plumbing, the degrees and weights before
  the projection, the gather, scaling, summation and bias after it — is the same sequence of operations in both.

  Over the extended reals the narrowing to bf16 is the identity and a product into a zero accumulator is the plain
  sum over the shared axis, so each step writes its 5000 rows of the one product `x · W`, the row blocks tile the
  array, and the pipeline's output is the reference's product (Projection).  The operations before the pipeline give
  the same edge sources, targets and weights as the reference's stages, and the operations after it are one chain
  applied to the projection (Tail, Aggregate); the reference's result is the same chain of its own product.  So the
  two results are one term.  No algebraic law beyond reading both products as the same sum is used, and the
  precondition (finite inputs) is never opened.  The ideal pass rewrote nothing, so `preserves` is trivial.
-/
import proofs.«423407_j37117107372138_3_alg».proof.Defs
import proofs.«423407_j37117107372138_3_alg».proof.Proof.Gen.Kernel
import proofs.«423407_j37117107372138_3_alg».proof.Proof.Gen.Kernel.Skeleton
import proofs.«423407_j37117107372138_3_alg».proof.Proof.Gen.Kernel.Launch
import proofs.«423407_j37117107372138_3_alg».proof.Proof.Gen.Kernel.Points
import proofs.«423407_j37117107372138_3_alg».proof.Proof.Gen.Kernel.Frame
import proofs.«423407_j37117107372138_3_alg».proof.Proof.Gen.KernelIdeal
import proofs.«423407_j37117107372138_3_alg».proof.Proof.Gen.KernelIdeal.Skeleton
import proofs.«423407_j37117107372138_3_alg».proof.Proof.Gen.KernelIdeal.Launch
import proofs.«423407_j37117107372138_3_alg».proof.Proof.Gen.KernelIdeal.Points
import proofs.«423407_j37117107372138_3_alg».proof.Proof.Gen.KernelIdeal.Frame
import proofs.«423407_j37117107372138_3_alg».proof.Proof.Gen.ReferenceIdeal
import proofs.«423407_j37117107372138_3_alg».proof.Proof.Gen.Pre_finite_inputs
import proofs.«423407_j37117107372138_3_alg».proof.Proof.RefRun
import proofs.«423407_j37117107372138_3_alg».proof.Proof.RefRead
import proofs.«423407_j37117107372138_3_alg».proof.Proof.Aggregate
import proofs.«423407_j37117107372138_3_alg».proof.Proof.Projection
import proofs.«423407_j37117107372138_3_alg».proof.Proof.Tail
import Idealize.ShloMosaic.Adequacy
import Idealize.ShloMosaic.Init

noncomputable section

namespace Cert.Proof

open Idealize.ShloMosaic Idealize.ShloMosaic.TcCoe Idealize.SL.Sem

/-! ## The kernel's result as a term of its arguments -/

section KernelValue

open Cert.KernelIdeal Cert.KernelIdeal.Gen

variable (m : (ℓ : Loc nD τ sig) → Buf (Elt Ideal) ℓ)

/-- The layer's output as one term of the five argument arrays: the aggregation chain of the product `x · W`, the
    edge sources and targets, the edge weights, and the bias. -/
def layer (c : Dev nD) : Buf (Elt Ideal) ((c.tc : Thread nD τ).loc main_v47) :=
  Cert.ReferenceIdeal.Aggregate.aggregate (F := Ideal)
    (Cert.ReferenceIdeal.ReadP.val_main_v31 (F := Ideal) (m ((c.tc : Thread nD τ).loc main_arg0)) (m ((c.tc : Thread nD τ).loc main_arg3)))
    (Cert.ReferenceIdeal.ReadP.val_main_v4 (F := Ideal) (m ((c.tc : Thread nD τ).loc main_arg1)) (m ((c.tc : Thread nD τ).loc main_arg2)))
    (Cert.ReferenceIdeal.ReadP.val_main_v7 (F := Ideal) (m ((c.tc : Thread nD τ).loc main_arg1)) (m ((c.tc : Thread nD τ).loc main_arg2)))
    (Cert.ReferenceIdeal.ReadP.val_main_v30 (F := Ideal) (m ((c.tc : Thread nD τ).loc main_arg1)) (m ((c.tc : Thread nD τ).loc main_arg2)))
    (m ((c.tc : Thread nD τ).loc main_arg4))

/-- The kernel's result buffer holds `layer`: the chain of what the pipeline wrote (the product) and of the
    buffers the earlier operations left (sources, targets, weights), the bias untouched. -/
theorem kernel_result (c : Dev nD) :
    Pipeline.afterTail₀ cfgs (dats m) 0 (V0 m) [hostOps1] c main_v47 = layer m c := by
  rw [Cert.KernelIdeal.Tail.result_eq m c, Cert.KernelIdeal.Projection.projected m c, Cert.KernelIdeal.Tail.sources m c,
    Cert.KernelIdeal.Tail.targets m c, Cert.KernelIdeal.Tail.weights m c, V_main_arg4 m c]
  rfl

/-- Every weakly fair execution of the kernel's program ends with the result at `layer` and the arguments unchanged:
    the generated frame run, its post read at the result buffer and at each argument (an argument the pipeline stages
    is its entry contents, one it does not stage is what the later operations leave, which none of them writes). -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v47 (Pipeline.mem_restRefs_of main_v47 (by decide) (by decide))).trans (kernel_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

end KernelValue

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end at `layer` of the kernel's arguments: the kernel by `kernel_run`; the reference's run ends at
    its last stage, which is the chain of its own product, sources, targets and weights, read at arguments that agree
    with the kernel's. -/
theorem algebraic : Cert.algebraic_KernelIdeal_ReferenceIdeal := by
  intro m ρ m' ρ' _ hagree
  refine ⟨fun c => layer m c, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, Cert.ReferenceIdeal.Aggregate.reference_result,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
